-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x10000 : Shape := ⟨2, ![2048, 10000]⟩
abbrev S36904 : Shape := ⟨1, ![36904]⟩
abbrev S1000 : Shape := ⟨1, ![1000]⟩
abbrev S_ : Shape := ⟨0, ![]⟩

class Facts : Prop where
  bcast_S_S2048x10000 : S_.BroadcastsInDim S2048x10000 (![] : Fin 0 → Fin S2048x10000.rank)
  reducesTo_S2048x10000_S_d0_1 : S2048x10000.ReducesTo [0, 1] S_
  h_S_ : 0 < S_.numel
  bcast_S_S1000 : S_.BroadcastsInDim S1000 (![] : Fin 0 → Fin S1000.rank)
  reducesTo_S1000_S_d0 : S1000.ReducesTo [0] S_
  bcast_S_S36904 : S_.BroadcastsInDim S36904 (![] : Fin 0 → Fin S36904.rank)
  reducesTo_S36904_S_d0 : S36904.ReducesTo [0] S_

variable [Facts]

def fn_part1 {F : FTy → Type} [FloatOps F] (main_arg2 : IVec S36904 32) (main_v15 : IVec S_ 1) (main_c_5 : IVec S_ 32) : IVec S_ 1 :=
  let main_v16 : IVec S36904 32 := broadcastInDim S36904 ![] bcast_S_S36904 main_c_5
  let main_v17 : IVec S36904 1 := cmpi .sge main_arg2 main_v16
  let main_c_6 : IVec S_ 1 := constantI S_ 1 1#1
  let main_v18 : IVec S_ 1 := (fun x v => Host.reduce IntOp.andi x v reducesTo_S36904_S_d0 h_S_) main_v17 main_c_6
  let main_v19 : IVec S_ 1 := andi main_v15 main_v18
  main_v19

def fn {F : FTy → Type} [FloatOps F] (main_arg0 : FVec F S2048x10000 .f32) (main_arg1 : IVec S36904 32) (main_arg2 : IVec S36904 32) (main_arg3 : FVec F S1000 .f32) : IVec S_ 1 :=
  let main_v0 : FVec F S2048x10000 .f32 := Host.absf main_arg0
  let main_cst : FVec F S_ .f32 := constant S_ .f32 0x7F800000#32
  let main_v1 : FVec F S2048x10000 .f32 := broadcastInDim S2048x10000 ![] bcast_S_S2048x10000 main_cst
  let main_v2 : IVec S2048x10000 1 := cmpf .olt main_v0 main_v1
  let main_c : IVec S_ 1 := constantI S_ 1 1#1
  let main_v3 : IVec S_ 1 := (fun x v => Host.reduce IntOp.andi x v reducesTo_S2048x10000_S_d0_1 h_S_) main_v2 main_c
  let main_v4 : FVec F S1000 .f32 := Host.absf main_arg3
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_c_2 : IVec S_ 32 := constantI S_ 32 4294957296#32
  let main_v9 : IVec S36904 32 := broadcastInDim S36904 ![] bcast_S_S36904 main_c_2
  let main_v10 : IVec S36904 1 := cmpi .sge main_arg1 main_v9
  let main_c_3 : IVec S_ 32 := constantI S_ 32 10000#32
  let main_v11 : IVec S36904 32 := broadcastInDim S36904 ![] bcast_S_S36904 main_c_3
  let main_v12 : IVec S36904 1 := cmpi .slt main_arg1 main_v11
  let main_v13 : IVec S36904 1 := andi main_v10 main_v12
  let main_c_4 : IVec S_ 1 := constantI S_ 1 1#1
  let main_v14 : IVec S_ 1 := (fun x v => Host.reduce IntOp.andi x v reducesTo_S36904_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S2048x10000 : Shape := ⟨2, ![2048, 10000]⟩
abbrev S36904 : Shape := ⟨1, ![36904]⟩
abbrev S1000 : Shape := ⟨1, ![1000]⟩
abbrev S_ : Shape := ⟨0, ![]⟩
abbrev S10000x1000 : Shape := ⟨2, ![10000, 1000]⟩
abbrev S36904x1 : Shape := ⟨2, ![36904, 1]⟩
abbrev S36904x2 : Shape := ⟨2, ![36904, 2]⟩
abbrev S2048x1000 : Shape := ⟨2, ![2048, 1000]⟩
abbrev S128x10000 : Shape := ⟨2, ![128, 10000]⟩
abbrev S128x1000 : Shape := ⟨2, ![128, 1000]⟩
abbrev S1x1000 : Shape := ⟨2, ![1, 1000]⟩

abbrev nBuf : Space → Nat
  | .hbm => 31
  | .vmem => 5
  | .smem => 0
  | _ => 0

abbrev bufTy : (tb : Table) → Fin (tcTables nBuf tb) → BufTy
  | .hbm, ⟨0, _⟩ => ⟨S2048x10000, .f32⟩
  | .hbm, ⟨1, _⟩ => ⟨S36904, .i32⟩
  | .hbm, ⟨2, _⟩ => ⟨S36904, .i32⟩
  | .hbm, ⟨3, _⟩ => ⟨S1000, .f32⟩
  | .hbm, ⟨4, _⟩ => ⟨S_, .f32⟩
  | .hbm, ⟨5, _⟩ => ⟨S36904, .f32⟩
  | .hbm, ⟨6, _⟩ => ⟨S_, .f32⟩
  | .hbm, ⟨7, _⟩ => ⟨S10000x1000, .f32⟩
  | .hbm, ⟨8, _⟩ => ⟨S_, .i32⟩
  | .hbm, ⟨9, _⟩ => ⟨S36904, .i32⟩
  | .hbm, ⟨10, _⟩ => ⟨S36904, .i1⟩
  | .hbm, ⟨11, _⟩ => ⟨S_, .i32⟩
  | .hbm, ⟨12, _⟩ => ⟨S36904, .i32⟩
  | .hbm, ⟨13, _⟩ => ⟨S36904, .i32⟩
  | .hbm, ⟨14, _⟩ => ⟨S36904, .i32⟩
  | .hbm, ⟨15, _⟩ => ⟨S_, .i32⟩
  | .hbm, ⟨16, _⟩ => ⟨S36904, .i32⟩
  | .hbm, ⟨17, _⟩ => ⟨S36904, .i1⟩
  | .hbm, ⟨18, _⟩ => ⟨S_, .i32⟩
  | .hbm, ⟨19, _⟩ => ⟨S36904, .i32⟩
  | .hbm, ⟨20, _⟩ => ⟨S36904, .i32⟩
  | .hbm, ⟨21, _⟩ => ⟨S36904, .i32⟩
  | .hbm, ⟨22, _⟩ => ⟨S36904x1, .i32⟩
  | .hbm, ⟨23, _⟩ => ⟨S36904x1, .i32⟩
  | .hbm, ⟨24, _⟩ => ⟨S36904x2, .i32⟩
  | .hbm, ⟨25, _⟩ => ⟨S10000x1000, .f32⟩
  | .hbm, ⟨26, _⟩ => ⟨S10000x1000, .bf16⟩
  | .hbm, ⟨27, _⟩ => ⟨S2048x1000, .f32⟩
  | .hbm, ⟨28, _⟩ => ⟨S1x1000, .f32⟩
  | .hbm, ⟨29, _⟩ => ⟨S2048x1000, .f32⟩
  | .hbm, ⟨30, _⟩ => ⟨S2048x1000, .f32⟩
  | .local _ .vmem, ⟨0, _⟩ => ⟨S128x10000, .f32⟩
  | .local _ .vmem, ⟨1, _⟩ => ⟨S128x10000, .f32⟩
  | .local _ .vmem, ⟨2, _⟩ => ⟨S10000x1000, .bf16⟩
  | .local _ .vmem, ⟨3, _⟩ => ⟨S128x1000, .f32⟩
  | .local _ .vmem, ⟨4, _⟩ => ⟨S128x1000, .f32⟩
  | _, _ => ⟨S2048x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S36904 : S_.BroadcastsInDim S36904 (![] : Fin 0 → Fin S36904.rank)
  bcast_S_S10000x1000 : S_.BroadcastsInDim S10000x1000 (![] : Fin 0 → Fin S10000x1000.rank)
  bcast_S36904_S36904x1_0 : S36904.BroadcastsInDim S36904x1 (![0] : Fin 1 → Fin S36904x1.rank)
  concatenates_S36904x1_S36904x1_S36904x2_d1 : Shape.Concatenates [S36904x1, S36904x1] S36904x2 1
  bitsLt_bf16_f32 : FTy.bits .bf16 < FTy.bits .f32
  inb_S128x10000_S128x10000_0_0 : ∀ a, (![0, 0] : Fin 2 → Nat) a + S128x10000.size a ≤ S128x10000.size a
  h_S128x10000 : 0 < S128x10000.numel
  inb_S10000x1000_S10000x1000_0_0 : ∀ a, (![0, 0] : Fin 2 → Nat) a + S10000x1000.size a ≤ S10000x1000.size a
  h_S10000x1000 : 0 < S10000x1000.numel
  shapeCasts_S10000x1000_S10000x1000 : S10000x1000.ShapeCasts S10000x1000
  inb_S128x1000_S128x1000_0_0 : ∀ a, (![0, 0] : Fin 2 → Nat) a + S128x1000.size a ≤ S128x1000.size a
  h_S128x1000 : 0 < S128x1000.numel
  bcast_S1000_S1x1000_1 : S1000.BroadcastsInDim S1x1000 (![1] : Fin 1 → Fin S1x1000.rank)
  bcast_S1x1000_S2048x1000_0_1 : S1x1000.BroadcastsInDim S2048x1000 (![0, 1] : Fin 2 → Fin S2048x1000.rank)
  scatter_S10000x1000_S36904x2_S36904_n_01_01_1_wf : ScatterDims.WF S10000x1000 S36904x2 S36904 [] [0, 1] [0, 1] 1
  dot_S128x10000_S10000x1000_S128x1000_1_0_0_1_n_n_wf : DotDims.WF S128x10000 S10000x1000 S128x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S2048x10000.size a
  hwx0_0 : ∀ i : grid0.Coords, EltTy.bits .f32 = 32 ∨ (Rect.block (s := S2048x10000) S128x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x1000.size a ≤ S10000x1000.size a
  hwx0_1 : ∀ i : grid0.Coords, EltTy.bits .bf16 = 32 ∨ (Rect.block (s := S10000x1000) S10000x1000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1000.size a ≤ S2048x1000.size a
  hwx0_2 : ∀ i : grid0.Coords, EltTy.bits .f32 = 32 ∨ (Rect.block (s := S2048x1000) S128x1000.size (cc0_transform_2 i) (hinb0_2 i)).WholeWords (EltTy.packing .f32)

variable [Facts₀]

def scatter_S10000x1000_S36904x2_S36904_n_01_01_1 : ScatterDims S10000x1000 S36904x2 S36904 where
  updateWindowDims := []
  insertedWindowDims := [0, 1]
  scatterDimsToOperandDims := [0, 1]
  indexVectorDim := 1
  wf := scatter_S10000x1000_S36904x2_S36904_n_01_01_1_wf
def dot_S128x10000_S10000x1000_S128x1000_1_0_0_1_n_n : DotDims S128x10000 S10000x1000 S128x1000 where
  lhsContracting := [1]
  rhsContracting := [0]
  lhsNonContracting := [0]
  rhsNonContracting := [1]
  lhsBatch := []
  rhsBatch := []
  wf := dot_S128x10000_S10000x1000_S128x1000_1_0_0_1_n_n_wf

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x10000 : Shape := ⟨2, ![2048, 10000]⟩
abbrev S36904 : Shape := ⟨1, ![36904]⟩
abbrev S1000 : Shape := ⟨1, ![1000]⟩
abbrev S_ : Shape := ⟨0, ![]⟩
abbrev S36904x1 : Shape := ⟨2, ![36904, 1]⟩
abbrev S2048x36904 : Shape := ⟨2, ![2048, 36904]⟩
abbrev S36904x2048 : Shape := ⟨2, ![36904, 2048]⟩
abbrev S1000x2048 : Shape := ⟨2, ![1000, 2048]⟩
abbrev S1000x1 : Shape := ⟨2, ![1000, 1]⟩
abbrev S2048x1000 : Shape := ⟨2, ![2048, 1000]⟩

abbrev nBuf : Space → Nat
  | .hbm => 22
  | .vmem => 0
  | .smem => 0
  | _ => 0

abbrev bufTy : (tb : Table) → Fin (tcTables nBuf tb) → BufTy
  | .hbm, ⟨0, _⟩ => ⟨S2048x10000, .f32⟩
  | .hbm, ⟨1, _⟩ => ⟨S36904, .i32⟩
  | .hbm, ⟨2, _⟩ => ⟨S36904, .i32⟩
  | .hbm, ⟨3, _⟩ => ⟨S1000, .f32⟩
  | .hbm, ⟨4, _⟩ => ⟨S_, .i32⟩
  | .hbm, ⟨5, _⟩ => ⟨S36904, .i32⟩
  | .hbm, ⟨6, _⟩ => ⟨S36904, .i1⟩
  | .hbm, ⟨7, _⟩ => ⟨S_, .i32⟩
  | .hbm, ⟨8, _⟩ => ⟨S36904, .i32⟩
  | .hbm, ⟨9, _⟩ => ⟨S36904, .i32⟩
  | .hbm, ⟨10, _⟩ => ⟨S36904, .i32⟩
  | .hbm, ⟨11, _⟩ => ⟨S36904x1, .i32⟩
  | .hbm, ⟨12, _⟩ => ⟨S2048x36904, .f32⟩
  | .hbm, ⟨13, _⟩ => ⟨S36904x2048, .f32⟩
  | .hbm, ⟨14, _⟩ => ⟨S_, .f32⟩
  | .hbm, ⟨15, _⟩ => ⟨S1000x2048, .f32⟩
  | .hbm, ⟨16, _⟩ => ⟨S36904x1, .i32⟩
  | .hbm, ⟨17, _⟩ => ⟨S1000x2048, .f32⟩
  | .hbm, ⟨18, _⟩ => ⟨S1000x1, .f32⟩
  | .hbm, ⟨19, _⟩ => ⟨S1000x2048, .f32⟩
  | .hbm, ⟨20, _⟩ => ⟨S1000x2048, .f32⟩
  | .hbm, ⟨21, _⟩ => ⟨S2048x1000, .f32⟩
  | _, _ => ⟨S2048x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S36904 : S_.BroadcastsInDim S36904 (![] : Fin 0 → Fin S36904.rank)
  bcast_S36904_S36904x1_0 : S36904.BroadcastsInDim S36904x1 (![0] : Fin 1 → Fin S36904x1.rank)
  transposes_S2048x36904_S36904x2048_1_0 : S2048x36904.Transposes [1, 0] S36904x2048
  bcast_S_S1000x2048 : S_.BroadcastsInDim S1000x2048 (![] : Fin 0 → Fin S1000x2048.rank)
  bcast_S1000_S1000x1_0 : S1000.BroadcastsInDim S1000x1 (![0] : Fin 1 → Fin S1000x1.rank)
  bcast_S1000x1_S1000x2048_0_1 : S1000x1.BroadcastsInDim S1000x2048 (![0, 1] : Fin 2 → Fin S1000x2048.rank)
  transposes_S1000x2048_S2048x1000_1_0 : S1000x2048.Transposes [1, 0] S2048x1000
  gather_S2048x10000_S36904x1_S2048x36904_0_1_n_n_1_1_20481_wf : GatherDims.WF S2048x10000 S36904x1 S2048x36904 [0] [1] [] [1] [] 1 ![2048, 1]
  scatter_S1000x2048_S36904x1_S36904x2048_1_0_0_1_wf : ScatterDims.WF S1000x2048 S36904x1 S36904x2048 [1] [0] [0] 1

variable [Facts₀]

def gather_S2048x10000_S36904x1_S2048x36904_0_1_n_n_1_1_20481 : GatherDims S2048x10000 S36904x1 S2048x36904 where
  offsetDims := [0]
  collapsedSliceDims := [1]
  operandBatchingDims := []
  startIndicesBatchingDims := []
  startIndexMap := [1]
  indexVectorDim := 1
  sliceSizes := ![2048, 1]
  wf := gather_S2048x10000_S36904x1_S2048x36904_0_1_n_n_1_1_20481_wf
def scatter_S1000x2048_S36904x1_S36904x2048_1_0_0_1 : ScatterDims S1000x2048 S36904x1 S36904x2048 where
  updateWindowDims := [1]
  insertedWindowDims := [0]
  scatterDimsToOperandDims := [0]
  indexVectorDim := 1
  wf := scatter_S1000x2048_S36904x1_S36904x2048_1_0_0_1_wf

class Facts : Prop extends Facts₀ where

variable [Facts]
-- ==== Proof.IndexWords.lean ====
/-
  The index words. jnp normalises an index word `i` into an axis of extent `n` by adding `n` when `i` is negative
  (`wrap`). Inside jnp's own index range `−n ≤ i < n` the normalised word is a position `0 ≤ · < n`; a word that is
  not negative is its own normalisation.
-/
import Idealize.ShloMosaic.PureOps
import Idealize.ShloMosaic.Lib.IdealHost

namespace Cert.Pooling

open Idealize.ShloMosaic

/-- jnp's normalisation of one index word into an axis whose extent is the word `n`, spelt as the programs print it. -/
def wrap (n i : BitVec 32) : BitVec 32 := Scalar.select (IntOp.cmpi .slt i 0#32) (IntOp.addi i n) i

theorem wrap_of_nonneg (n i : BitVec 32) (h : 0 ≤ i.toInt) : wrap n i = i := by
  unfold wrap Scalar.select IntOp.cmpi
  have hs : i.slt 0#32 = false := by
    rw [BitVec.slt_eq_decide, BitVec.toInt_zero]; exact decide_eq_false (by omega)
  simp [hs]

theorem wrap_of_neg (n i : BitVec 32) (h : i.toInt < 0) : wrap n i = i + n := by
  unfold wrap Scalar.select IntOp.cmpi IntOp.addi
  have hs : i.slt 0#32 = true := by
    rw [BitVec.slt_eq_decide, BitVec.toInt_zero]; exact decide_eq_true h
  simp [hs]

/-- Inside `−10000 ≤ i < 10000` the normalised word is a column number `0 ≤ · < 10000`. -/
theorem wrap_range_10000 (i : BitVec 32) (h1 : -10000 ≤ i.toInt) (h2 : i.toInt < 10000) :
    0 ≤ (wrap 10000#32 i).toInt ∧ (wrap 10000#32 i).toInt < 10000 := by
  by_cases hneg : i.toInt < 0
  · rw [wrap_of_neg _ _ hneg]
    have h10 : (10000#32 : BitVec 32).toInt = 10000 := by decide
    have e : (i + 10000#32).toInt = i.toInt + 10000 := by
      have hp : (2 : ℕ) ^ 32 = 4294967296 := by decide
      rw [BitVec.toInt_add, h10]
      exact Int.bmod_eq_of_le_mul_two (by rw [hp]; omega) (by rw [hp]; omega)
    omega
  · rw [wrap_of_nonneg _ _ (by omega)]
    omega

/-! ## A printed comparison that came out 1, and a constant word broadcast, read at one element -/

theorem ofBool_eq_one {b : Bool} (h : BitVec.ofBool b = 1#1) : b = true := by
  cases b with
  | true => rfl
  | false => exact absurd h (by decide)

/-- `a ≥ b` signed came out 1: `b ≤ a` as integers. -/
theorem le_of_sge_one {a b : BitVec 32} (h : IntOp.cmpi .sge a b = 1#1) : b.toInt ≤ a.toInt := by
  have h' : BitVec.ofBool (b.sle a) = 1#1 := h
  exact BitVec.sle_iff_toInt_le.mp (ofBool_eq_one h')

/-- `a < b` signed came out 1: `a < b` as integers. -/
theorem lt_of_slt_one {a b : BitVec 32} (h : IntOp.cmpi .slt a b = 1#1) : a.toInt < b.toInt := by
  have h' : BitVec.ofBool (a.slt b) = 1#1 := h
  exact BitVec.slt_iff_toInt_lt.mp (ofBool_eq_one h')

/-- A constant word broadcast to any shape reads the word everywhere. -/
theorem bcast_word {T : Shape} (h : (⟨0, ![]⟩ : Shape).BroadcastsInDim T ![]) (c : BitVec 32) (j : T.Idx) :
    broadcastInDim T ![] h (constantI ⟨0, ![]⟩ 32 c) j = c := by
  rw [ValueIdx.broadcastInDim_scalar_apply]; rfl

end Cert.Pooling
-- ==== Proof.PreDecode.lean ====
/-
  What the precondition says of the two index arrays. The printed predicate is a conjunction of four `jnp.all`s; the
  last two are the index ranges: every `flat_indices` word lies in jnp's own index range of the gene-set axis,
  `−10000 ≤ · < 10000`, and no `segment_ids` word is negative. Nothing here reads the two finiteness conjuncts.
-/
import proofs.«407155_j72782515798453_1_alg».proof.Pre_finite_inputs
import proofs.«407155_j72782515798453_1_alg».proof.Proof.IndexWords
import Idealize.ShloMosaic.Lib.ReduceAll
import Idealize.ShloMosaic.Lib.ValueIdx

namespace Cert.Pooling

open Idealize.ShloMosaic Idealize.ShloMosaic.ValueIdx
open Cert.Pre_finite_inputs (S2048x10000 S36904 S1000 S_)

instance : Subsingleton S_.Idx := ⟨fun _ _ => funext fun d => d.elim0⟩

variable {F : FTy → Type} [FloatOps F] [Cert.Pre_finite_inputs.Facts]

/-- The index ranges, word by word, from the printed precondition being all ones. -/
theorem ranges_of_pre (x : FVec F S2048x10000 .f32) (flat seg : IVec S36904 32) (sizes : FVec F S1000 .f32)
    (h : Cert.Pre_finite_inputs.fn (F := F) x flat seg sizes = fun _ => 1#1) :
    (∀ k : S36904.Idx, -10000 ≤ (flat k).toInt ∧ (flat k).toInt < 10000) ∧ ∀ k : S36904.Idx, 0 ≤ (seg k).toInt := by
  have h0 := congrFun h ix0
  dsimp only [Cert.Pre_finite_inputs.fn, Cert.Pre_finite_inputs.fn_part1] at h0
  obtain ⟨h123, hseg⟩ := IntOp.andi_eq_one.mp h0
  obtain ⟨_, hflat⟩ := IntOp.andi_eq_one.mp h123
  constructor
  · intro k
    have hk := Host.reduce_andi_all _ _ _ _ ix0 hflat k
    obtain ⟨ha, hb⟩ := IntOp.andi_eq_one.mp hk
    have ha' := le_of_sge_one ha
    have hb' := lt_of_slt_one hb
    rw [bcast_word] at ha' hb'
    have e1 : (4294957296#32 : BitVec 32).toInt = -10000 := by decide
    have e2 : (10000#32 : BitVec 32).toInt = 10000 := by decide
    rw [e1] at ha'
    rw [e2] at hb'
    exact ⟨ha', hb'⟩
  · intro k
    have hk := Host.reduce_andi_all _ _ _ _ ix0 hseg k
    have hk' := le_of_sge_one hk
    rw [bcast_word, BitVec.toInt_zero] at hk'
    exact hk'

end Cert.Pooling
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.Spec.lean ====
/-
  The specification: per-pathway mean pooling as ONE function of the four arguments.

  Pair `k` of the ragged lists names a gene-set column — `flat_indices[k]` normalised as jnp does and clamped into the
  table, as a gather reads it — and a pathway `segment_ids[k]`, read as a signed integer. Entry `(b, p)` of the result
  is the sum, over the pairs whose pathway is `p`, of row `b` at the pair's column, divided by `segment_sizes[p]`.
-/
import Idealize.ShloMosaic.PureOps.Ideal
import Idealize.ShloMosaic.Lib.ValueIdx
import proofs.«407155_j72782515798453_1_alg».proof.Proof.IndexWords
import proofs.«407155_j72782515798453_1_alg».proof.Proof.LibRowGather

noncomputable section

namespace Cert.Pooling

open Idealize.ShloMosaic Idealize.ShloMosaic.ValueIdx Idealize.ShloMosaic.RowGather

abbrev SX : Shape := ⟨2, ![2048, 10000]⟩
abbrev SK : Shape := ⟨1, ![36904]⟩
abbrev SP : Shape := ⟨1, ![1000]⟩
abbrev SO : Shape := ⟨2, ![2048, 1000]⟩

/-- The gene-set column pair `k` reads. -/
def colOf (flat : IVec SK 32) (k : Fin 36904) : Fin 10000 :=
  clampRow 10000 (by decide) (wrap 10000#32 (flat (ix1 k)))

/-- Pair `k` belongs to pathway `p`. -/
abbrev inPath (seg : IVec SK 32) (p : Fin 1000) (k : Fin 36904) : Prop := (seg (ix1 k)).toInt = (p.val : ℤ)

/-- The sum of row `b` over the pairs of pathway `p`. -/
def pooled (x : SX.Idx → EReal) (flat seg : IVec SK 32) (b : Fin 2048) (p : Fin 1000) : EReal :=
  ∑ k : Fin 36904, if inPath seg p k then x (ix2 b (colOf flat k)) else 0

/-- Mean pooling: the pooled sum over the pathway's stated size. -/
def meanPool (x : SX.Idx → EReal) (flat seg : IVec SK 32) (sizes : SP.Idx → EReal) : SO.Idx → EReal :=
  fun j => Ideal.div (pooled x flat seg (j 0) (j 1)) (sizes (ix1 (j 1)))

theorem meanPool_apply (x : SX.Idx → EReal) (flat seg : IVec SK 32) (sizes : SP.Idx → EReal) (b : Fin 2048) (p : Fin 1000) :
    meanPool x flat seg sizes (ix2 b p) = Ideal.div (pooled x flat seg b p) (sizes (ix1 p)) := rfl

end Cert.Pooling

end
-- ==== Proof.LibColGather.lean ====
/-
  A column gather read at an index. `table[:, idx]` over a rank-2 table [B, N] at a vector of n column numbers prints as a
  `stablehlo.gather` whose start indices are the [n, 1] column of column numbers, whose operand axis 1 is collapsed and
  start-indexed, whose operand axis 0 is the one offset axis, and whose slices are whole columns [B, 1]. Result element
  (b, k) is the table at (b, column), the column being position k's start index read as a signed integer and clamped
  into [0, N − 1].
-/
import Idealize.ShloMosaic.PureOps.ShapeOps
import Idealize.ShloMosaic.Lib.ValueIdx
import proofs.«407155_j72782515798453_1_alg».proof.Proof.LibRowGather

namespace Idealize.ShloMosaic.ColGather

open Idealize.ShloMosaic Idealize.ShloMosaic.ValueIdx Idealize.ShloMosaic.RowGather

/-- THE COLUMN GATHER AT (b, k): the table at (b, the clamped start column of position k). The five hypotheses are the
    printed dimension numbers, each by `rfl` at a program's record. -/
theorem gather_cols_apply {α : Type} {B N n w : Nat} (d : GatherDims ⟨2, ![B, N]⟩ ⟨2, ![n, 1]⟩ ⟨2, ![B, n]⟩)
    (hoff : d.offsetDims = [0]) (hcoll : d.collapsedSliceDims = [1]) (hob : d.operandBatchingDims = [])
    (hsim : d.startIndexMap = [1]) (hivd : d.indexVectorDim = 1)
    (x : (⟨2, ![B, N]⟩ : Shape).Idx → α) (idx : IVec ⟨2, ![n, 1]⟩ w) (b : Fin B) (k : Fin n) (hN : 0 < N) :
    Host.gather d x idx (ix2 b k)
      = x (ix2 b (clampRow N hN (idx (ix2 k (0 : Fin 1))))) := by
  unfold Host.gather clampRow
  congr 1
  funext a
  apply Fin.ext
  have hb : ∀ a : Fin 2, a ∉ d.operandBatchingDims := fun a => by rw [hob]; exact List.not_mem_nil
  -- the result's batch axes are all axis 1, its offset axes all axis 0
  have hbatch : ∀ a ∈ d.batchDims, a.val = 1 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 0; omega)))
  have hoffs : ∀ a ∈ d.offsetDims, a.val = 0 := by
    intro a ha; rw [hoff] at ha; rw [List.mem_singleton.mp ha]; rfl
  match a with
  | ⟨0, _⟩ =>
    have hk : (0 : Fin 2) ∈ d.sKept := by rw [GatherDims.mem_sKept, hcoll, hob]; simp
    have hm : (0 : Fin 2) ∉ d.startIndexMap := by rw [hsim]; simp
    show d.start (ix2 b k) idx 0 + d.batchCoord (ix2 b k) 0 + d.offCoord (ix2 b k) 0 = b.val
    rw [d.batchCoord_eq_zero _ _ (hb 0)]
    simp only [Nat.add_zero]
    unfold GatherDims.start
    rw [dif_neg hm, Nat.zero_add]
    unfold GatherDims.offCoord
    rw [dif_pos hk]
    exact ix2_val_zero b k _ (hoffs _ (List.getElem_mem _))
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 b k) idx 1 + d.batchCoord (ix2 b k) 1 + d.offCoord (ix2 b k) 1 = min _ (N - 1)
    rw [d.batchCoord_eq_zero _ _ (hb 1), d.offCoord_eq_zero _ _ hk]
    simp only [Nat.add_zero]
    unfold GatherDims.start
    rw [dif_pos hm]
    have hsi : d.siIdx (ix2 b k) ⟨d.startIndexMap.idxOf (1 : Fin 2), List.idxOf_lt_length_iff.2 hm⟩ = ix2 k (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact ix2_val_one b k _ (hbatch _ (List.getElem_mem _))
      | ⟨1, _⟩ =>
        unfold GatherDims.siIdx
        rw [dif_pos (by rw [hivd])]
        show List.idxOf (1 : Fin 2) d.startIndexMap = 0
        rw [hsim]; simp
    rw [hsi]
    show min (idx (ix2 k 0)).toInt.toNat (N - d.sliceSizes 1) = _
    rw [hsl]

end Idealize.ShloMosaic.ColGather
-- ==== Proof.LibScatterRows.lean ====
/-
  An accumulating scatter into a table, read at one entry, as a sum over the rows of the updates.

  At the ideal instance the scatter's entry `i` is the operand's entry plus the sum of the updates that land on `i`.
  When the updates are laid out one row per scatter index — `[N, D]` updates into a `[C, D]` table, row `r` landing on
  class row `c` exactly when a condition `hit r` holds, feature column kept — the updates landing on `(c, f)` are the
  entries `(r, f)` of the rows with `hit r`: the entry is the operand's plus the sum over ALL rows `r` of the update at
  `(r, f)` where `hit r` and zero elsewhere. Stated for any sizes; which rows hit is a hypothesis.
-/
import Idealize.ShloMosaic.PureOps.Ideal
import Idealize.ShloMosaic.PureOps.Contract
import Idealize.ShloMosaic.Lib.ValueIdx

namespace Cert.ClassStats.Scatter

open Idealize.ShloMosaic Idealize.ShloMosaic.ValueIdx

/-- A sum over the indices of a vector shape is the sum over its one coordinate. -/
theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

/-- Rows of `[N, D]` updates scattered into a `[C, D]` table: entry `(c, f)`. -/
theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

/-- A vector of `N` updates scattered into a vector of `C` entries: entry `c`. -/
theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.LibScatterIdx.lean ====
/-
  Where an update of a host scatter lands, as equations between integers.

  An update index `j` of a scatter lands on the operand index `i` exactly when, on every operand axis, the start read
  off the scatter indices (signed, not clamped) plus the window coordinate is `i`'s coordinate; an update whose sum
  leaves the operand on some axis lands nowhere. Two layouts are then read off their dimension numbers:

  * ROWS: `[N, D]` updates into a `[C, D]` table through an `[N, 1]` column of row numbers — update `(r, b)` lands on
    `(c, f)` exactly when row `r`'s number is `c` and `b = f`;
  * PAIRS: a vector of `N` updates into a `[G, P]` table through an `[N, 2]` array of (row, column) pairs — update `r`
    lands on `(g, p)` exactly when its pair is `(g, p)`.

  The accumulating scatter of the second layout is then read at an entry as a sum over all `N` updates.
-/
import Idealize.ShloMosaic.PureOps.Ideal
import Idealize.ShloMosaic.PureOps.Contract
import Idealize.ShloMosaic.Lib.ValueIdx
import proofs.«407155_j72782515798453_1_alg».proof.Proof.LibScatterRows

namespace Idealize.ShloMosaic.ScatterIdx

open Idealize.ShloMosaic Idealize.ShloMosaic.ValueIdx

/-- An update lands on `i` exactly when start plus window coordinate is `i`'s coordinate on every axis. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e' := congrFun (Option.some.inj e) a
      have hv : ((d.start j idx a + (d.window j a : ℤ)).toNat) = (i a).val := congrArg Fin.val e'
      have := (h a).1
      omega
    · intro e
      congr 1
      funext a
      apply Fin.ext
      show (d.start j idx a + (d.window j a : ℤ)).toNat = (i a).val
      have := e a
      omega
  · rename_i h
    constructor
    · intro e; exact absurd e (by simp)
    · intro e
      exact absurd (fun a => by have := e a; have := (i a).isLt; constructor <;> omega) h

/-- A rank-1 index read on its one axis is its coordinate. -/
theorem ix1_val {n : ℕ} (a : Fin n) (i : Fin 1) : (ix1 a i).val = a.val := by
  match i with
  | ⟨0, _⟩ => rfl
/-- A rank-2 index read on an axis whose number is 0 is its first coordinate, -/
theorem ix2_val_of_zero {n0 n1 : ℕ} (a : Fin n0) (b : Fin n1) (i : Fin 2) (hi : i.val = 0) : (ix2 a b i).val = a.val := by
  match i, hi with
  | ⟨0, _⟩, _ => rfl
/-- and on an axis whose number is 1 its second. -/
theorem ix2_val_of_one {n0 n1 : ℕ} (a : Fin n0) (b : Fin n1) (i : Fin 2) (hi : i.val = 1) : (ix2 a b i).val = b.val := by
  match i, hi with
  | ⟨1, _⟩, _ => rfl

/-! ## Rows: `[N, D]` updates into a `[C, D]` table through an `[N, 1]` column of row numbers -/

/-- Update `(r, b)` lands on `(c, f)` exactly when row `r`'s number, read signed, is `c`, and `b = f`. The four
    hypotheses are the printed dimension numbers, each by `rfl` at a program's record. -/
theorem rows_lands_iff {N C D w : ℕ} (d : ScatterDims ⟨2, ![C, D]⟩ ⟨2, ![N, 1]⟩ ⟨2, ![N, D]⟩)
    (huw : d.updateWindowDims = [1]) (hiw : d.insertedWindowDims = [0])
    (hsd : d.scatterDimsToOperandDims = [0]) (hivd : d.indexVectorDim = 1)
    (idx : IVec ⟨2, ![N, 1]⟩ w) (r : Fin N) (b : Fin D) (c : Fin C) (f : Fin D) :
    d.resultIdx? (ix2 r b) idx = some (ix2 c f) ↔ (idx (ix2 r (0 : Fin 1))).toInt = (c.val : ℤ) ∧ b = f := by
  -- the updates' scatter axes are all axis 0, their window axes all axis 1
  have huscat : ∀ a ∈ d.uScatter, a.val = 0 := by
    intro a ha
    have hna : a ∉ d.updateWindowDims := by
      have := (List.mem_filter.mp ha).2
      simpa using this
    rw [huw] at hna
    have h2 : a.val < 2 := a.isLt
    by_contra hne
    exact hna (List.mem_singleton.mpr (Fin.ext (by show a.val = 1; omega)))
  have huwin : ∀ a ∈ d.updateWindowDims, a.val = 1 := by
    intro a ha; rw [huw] at ha; rw [List.mem_singleton.mp ha]; rfl
  have hk0 : (0 : Fin 2) ∉ d.sKept := by simp [ScatterDims.sKept, Shape.kept, hiw]
  have hk1 : (1 : Fin 2) ∈ d.sKept := by simp [ScatterDims.sKept, Shape.kept, hiw]
  have hm0 : (0 : Fin 2) ∈ d.scatterDimsToOperandDims := by rw [hsd]; exact List.mem_singleton.mpr rfl
  have hm1 : (1 : Fin 2) ∉ d.scatterDimsToOperandDims := by rw [hsd]; simp
  have hsi : d.siIdx (ix2 r b) ⟨d.scatterDimsToOperandDims.idxOf (0 : Fin 2), List.idxOf_lt_length_iff.2 hm0⟩
      = ix2 r (0 : Fin 1) := by
    funext b'
    apply Fin.ext
    match b' with
    | ⟨0, _⟩ =>
      unfold ScatterDims.siIdx
      rw [dif_neg (by rw [hivd]; exact Nat.zero_ne_one)]
      unfold ScatterDims.siCoord
      simp only [Fin.val_cast]
      exact ix2_val_of_zero r b _ (huscat _ (List.getElem_mem _))
    | ⟨1, _⟩ =>
      unfold ScatterDims.siIdx
      rw [dif_pos (by rw [hivd])]
      show List.idxOf (0 : Fin 2) d.scatterDimsToOperandDims = 0
      rw [hsd]; simp
  have hs0 : d.start (ix2 r b) idx 0 = (idx (ix2 r (0 : Fin 1))).toInt := by
    unfold ScatterDims.start; rw [dif_pos hm0, hsi]
  have hs1 : d.start (ix2 r b) idx 1 = 0 := by
    unfold ScatterDims.start; rw [dif_neg hm1]
  have hw0 : d.window (ix2 r b) 0 = 0 := by
    unfold ScatterDims.window; rw [dif_neg hk0]
  have hw1 : d.window (ix2 r b) 1 = b.val := by
    unfold ScatterDims.window; rw [dif_pos hk1]
    exact ix2_val_of_one r b _ (huwin _ (List.getElem_mem _))
  rw [resultIdx?_eq_some_iff]
  constructor
  · intro h
    have h0 := h 0
    have h1 := h 1
    rw [hs0, hw0] at h0
    rw [hs1, hw1] at h1
    have h0' : (idx (ix2 r (0 : Fin 1))).toInt + ((0 : ℕ) : ℤ) = (c.val : ℤ) := h0
    have h1' : (0 : ℤ) + (b.val : ℤ) = (f.val : ℤ) := h1
    exact ⟨by omega, Fin.ext (by omega)⟩
  · rintro ⟨h1, rfl⟩ a
    match a with
    | ⟨0, _⟩ =>
      show d.start (ix2 r b) idx 0 + (d.window (ix2 r b) 0 : ℤ) = (c.val : ℤ)
      rw [hs0, hw0]; omega
    | ⟨1, _⟩ =>
      show d.start (ix2 r b) idx 1 + (d.window (ix2 r b) 1 : ℤ) = (b.val : ℤ)
      rw [hs1, hw1]; omega

/-! ## Pairs: a vector of `N` updates into a `[G, P]` table through an `[N, 2]` array of (row, column) pairs -/

/-- Update `r` lands on `(g, p)` exactly when its pair, read signed, is `(g, p)`. -/
theorem pairs_lands_iff {N G P w : ℕ} (d : ScatterDims ⟨2, ![G, P]⟩ ⟨2, ![N, 2]⟩ ⟨1, ![N]⟩)
    (hiw : d.insertedWindowDims = [0, 1]) (hsd : d.scatterDimsToOperandDims = [0, 1]) (hivd : d.indexVectorDim = 1)
    (idx : IVec ⟨2, ![N, 2]⟩ w) (r : Fin N) (g : Fin G) (p : Fin P) :
    d.resultIdx? (ix1 r) idx = some (ix2 g p)
      ↔ (idx (ix2 r (0 : Fin 2))).toInt = (g.val : ℤ) ∧ (idx (ix2 r (1 : Fin 2))).toInt = (p.val : ℤ) := by
  have hk : ∀ a : Fin 2, a ∉ d.sKept := fun a => by
    simp only [ScatterDims.sKept, Shape.kept, hiw, List.mem_filter, List.mem_finRange, true_and, decide_not,
      Bool.not_eq_eq_eq_not, Bool.not_true, decide_eq_false_iff_not, not_not]
    have h2 : a.val < 2 := a.isLt
    rcases (show a.val = 0 ∨ a.val = 1 by omega) with h | h
    · exact List.mem_cons.mpr (Or.inl (Fin.ext h))
    · exact List.mem_cons.mpr (Or.inr (List.mem_singleton.mpr (Fin.ext h)))
  have hm0 : (0 : Fin 2) ∈ d.scatterDimsToOperandDims := by rw [hsd]; simp
  have hm1 : (1 : Fin 2) ∈ d.scatterDimsToOperandDims := by rw [hsd]; simp
  have hsi0 : d.siIdx (ix1 r) ⟨d.scatterDimsToOperandDims.idxOf (0 : Fin 2), List.idxOf_lt_length_iff.2 hm0⟩
      = ix2 r (0 : Fin 2) := by
    funext b'
    apply Fin.ext
    match b' with
    | ⟨0, _⟩ =>
      unfold ScatterDims.siIdx
      rw [dif_neg (by rw [hivd]; exact Nat.zero_ne_one)]
      unfold ScatterDims.siCoord
      simp only [Fin.val_cast]
      exact ix1_val r _
    | ⟨1, _⟩ =>
      unfold ScatterDims.siIdx
      rw [dif_pos (by rw [hivd])]
      show List.idxOf (0 : Fin 2) d.scatterDimsToOperandDims = 0
      rw [hsd]; simp
  have hsi1 : d.siIdx (ix1 r) ⟨d.scatterDimsToOperandDims.idxOf (1 : Fin 2), List.idxOf_lt_length_iff.2 hm1⟩
      = ix2 r (1 : Fin 2) := by
    funext b'
    apply Fin.ext
    match b' with
    | ⟨0, _⟩ =>
      unfold ScatterDims.siIdx
      rw [dif_neg (by rw [hivd]; exact Nat.zero_ne_one)]
      unfold ScatterDims.siCoord
      simp only [Fin.val_cast]
      exact ix1_val r _
    | ⟨1, _⟩ =>
      unfold ScatterDims.siIdx
      rw [dif_pos (by rw [hivd])]
      show List.idxOf (1 : Fin 2) d.scatterDimsToOperandDims = 1
      rw [hsd]; rfl
  have hs0 : d.start (ix1 r) idx 0 = (idx (ix2 r (0 : Fin 2))).toInt := by
    unfold ScatterDims.start; rw [dif_pos hm0, hsi0]
  have hs1 : d.start (ix1 r) idx 1 = (idx (ix2 r (1 : Fin 2))).toInt := by
    unfold ScatterDims.start; rw [dif_pos hm1, hsi1]
  have hw : ∀ a : Fin 2, d.window (ix1 r) a = 0 := fun a => by
    unfold ScatterDims.window; rw [dif_neg (hk a)]
  rw [resultIdx?_eq_some_iff]
  constructor
  · intro h
    have h0 := h 0
    have h1 := h 1
    rw [hs0, hw 0] at h0
    rw [hs1, hw 1] at h1
    have h0' : (idx (ix2 r (0 : Fin 2))).toInt + ((0 : ℕ) : ℤ) = (g.val : ℤ) := h0
    have h1' : (idx (ix2 r (1 : Fin 2))).toInt + ((0 : ℕ) : ℤ) = (p.val : ℤ) := h1
    exact ⟨by omega, by omega⟩
  · rintro ⟨h0, h1⟩ a
    match a with
    | ⟨0, _⟩ =>
      show d.start (ix1 r) idx 0 + (d.window (ix1 r) 0 : ℤ) = (g.val : ℤ)
      rw [hs0, hw 0]; omega
    | ⟨1, _⟩ =>
      show d.start (ix1 r) idx 1 + (d.window (ix1 r) 1 : ℤ) = (p.val : ℤ)
      rw [hs1, hw 1]; omega

/-- The accumulating scatter of `N` updates into a `[G, P]` table, read at the entry `(g, p)`: the operand's entry plus
    the sum, over all `N` updates, of the update where it lands on `(g, p)` and zero elsewhere. -/
theorem scatterPairs_apply {N G P w : ℕ} (d : ScatterDims ⟨2, ![G, P]⟩ ⟨2, ![N, 2]⟩ ⟨1, ![N]⟩)
    (x : (⟨2, ![G, P]⟩ : Shape).Idx → EReal) (idx : IVec ⟨2, ![N, 2]⟩ w) (upd : (⟨1, ![N]⟩ : Shape).Idx → EReal)
    (g : Fin G) (p : Fin P) (hit : Fin N → Prop) [DecidablePred hit]
    (hchar : ∀ r : Fin N, d.resultIdx? (ix1 r) idx = some (ix2 g p) ↔ hit r) :
    Host.scatterAdd (F := Ideal) (φ := .f32) d x idx upd (ix2 g p)
      = x (ix2 g p) + ∑ r : Fin N, if hit r then upd (ix1 r) else 0 := by
  show x (ix2 g p) + ∑ j ∈ Finset.univ.filter (fun j => d.resultIdx? j idx = some (ix2 g p)), upd j = _
  congr 1
  rw [Finset.sum_filter, Cert.ClassStats.Scatter.sum_idx1]
  refine Finset.sum_congr rfl fun r _ => ?_
  by_cases h : hit r
  · rw [if_pos h, if_pos ((hchar r).mpr h)]
  · rw [if_neg h, if_neg fun hh => h ((hchar r).mp hh)]

end Idealize.ShloMosaic.ScatterIdx
-- ==== Proof.RefValue.lean ====
/-
  The reference computes the specification. Its last stage read at `(b, p)` is the transposed quotient at `(p, b)`;
  the dividend there is the accumulating row scatter's entry — zero plus the sum over the rows `k` whose segment id
  is `p` of the gathered, transposed table at `(k, b)`, which is `x` at `(b, column of k)` —, the divisor
  `segment_sizes[p]` broadcast along the batch.
-/
import proofs.«407155_j72782515798453_1_alg».proof.Proof.Gen.ReferenceIdeal.Read
import proofs.«407155_j72782515798453_1_alg».proof.Proof.Spec
import proofs.«407155_j72782515798453_1_alg».proof.Proof.LibColGather
import proofs.«407155_j72782515798453_1_alg».proof.Proof.LibScatterRows
import proofs.«407155_j72782515798453_1_alg».proof.Proof.LibScatterIdx
import Idealize.ShloMosaic.PureOps.Ideal.Laws

noncomputable section

namespace Cert.Pooling.Ref

open Idealize.ShloMosaic Idealize.ShloMosaic.ValueIdx Idealize.ShloMosaic.RowGather
open Cert.ReferenceIdeal Cert.ReferenceIdeal.Read Cert.Pooling

/-! ## Where each layout stage reads -/

theorem idx14 (b : Fin 2048) (p : Fin 1000) : idx_main_v14 (ix2 b p) = ix2 p b :=
  funext fun a => Fin.ext (by match a with | ⟨0, _⟩ => rfl | ⟨1, _⟩ => rfl)
theorem idx12 (p : Fin 1000) (b : Fin 2048) : idx_main_v12 (ix2 p b) = ix2 p (0 : Fin 1) :=
  funext fun a => Fin.ext (by match a with | ⟨0, _⟩ => rfl | ⟨1, _⟩ => rfl)
theorem idx11 (p : Fin 1000) : idx_main_v11 (ix2 p (0 : Fin 1)) = ix1 p :=
  funext fun a => Fin.ext (by match a with | ⟨0, _⟩ => rfl)
theorem idx9 (k : Fin 36904) : idx_main_v9 (ix2 k (0 : Fin 1)) = ix1 k :=
  funext fun a => Fin.ext (by match a with | ⟨0, _⟩ => rfl)
theorem idx7 (k : Fin 36904) (b : Fin 2048) : idx_main_v7 (ix2 k b) = ix2 b k :=
  funext fun a => Fin.ext (by match a with | ⟨0, _⟩ => rfl | ⟨1, _⟩ => rfl)
theorem idx5 (k : Fin 36904) : idx_main_v5 (ix2 k (0 : Fin 1)) = ix1 k :=
  funext fun a => Fin.ext (by match a with | ⟨0, _⟩ => rfl)

/-! ## The stages at an index -/

/-- The column of start indices at row `k` is the normalised `flat_indices[k]`. -/
theorem starts_apply (flat : IVec SK 32) (k : Fin 36904) :
    val_main_v5 (F := Ideal) flat (ix2 k (0 : Fin 1)) = wrap 10000#32 (flat (ix1 k)) := by
  rw [val_main_v5_apply, idx5, val_main_v4_apply, val_main_v1_apply, val_main_v3_apply, val_main_v0_apply, val_main_v2_apply,
    val_main_c_apply, val_main_c_0_apply]
  rfl

/-- The gathered, transposed table at `(k, b)` is `x` at `(b, column of k)`. -/
theorem gathered_apply (x : SX.Idx → EReal) (flat : IVec SK 32) (k : Fin 36904) (b : Fin 2048) :
    val_main_v7 (F := Ideal) x flat (ix2 k b) = x (ix2 b (colOf flat k)) := by
  rw [val_main_v7_apply, idx7]
  unfold val_main_v6
  refine (ColGather.gather_cols_apply gather_S2048x10000_S36904x1_S2048x36904_0_1_n_n_1_1_20481 rfl rfl rfl rfl rfl
    x (val_main_v5 (F := Ideal) flat) b k (by decide)).trans ?_
  rw [starts_apply]
  rfl

/-- The segment ids' column at row `k` is `segment_ids[k]`. -/
theorem segcol_apply (seg : IVec SK 32) (k : Fin 36904) :
    val_main_v9 (F := Ideal) seg (ix2 k (0 : Fin 1)) = seg (ix1 k) := by
  rw [val_main_v9_apply, idx9]

/-- The scattered sums at `(p, b)`: the pooled sum of row `b` over pathway `p`. -/
theorem sums_apply (x : SX.Idx → EReal) (flat seg : IVec SK 32) (p : Fin 1000) (b : Fin 2048) :
    val_main_v10 (F := Ideal) x flat seg (ix2 p b) = pooled x flat seg b p := by
  unfold val_main_v10
  refine (Cert.ClassStats.Scatter.scatter2_apply scatter_S1000x2048_S36904x1_S36904x2048_1_0_0_1
    (val_main_v8 (F := Ideal)) (val_main_v9 (F := Ideal) seg) (val_main_v7 (F := Ideal) x flat) p b (inPath seg p)
    (fun r b' => by
      rw [ScatterIdx.rows_lands_iff scatter_S1000x2048_S36904x1_S36904x2048_1_0_0_1 rfl rfl rfl rfl, segcol_apply])).trans ?_
  rw [val_main_v8_apply, val_main_cst_apply]
  show Ideal.ofBits .f32 0x00000000#32 + _ = _
  rw [Ideal.ofBits_zero_f32, zero_add]
  unfold pooled
  exact Finset.sum_congr rfl fun k _ => by rw [gathered_apply]

/-- The divisor at `(p, b)` is `segment_sizes[p]`. -/
theorem divisor_apply (sizes : SP.Idx → EReal) (p : Fin 1000) (b : Fin 2048) :
    val_main_v12 (F := Ideal) sizes (ix2 p b) = sizes (ix1 p) := by
  rw [val_main_v12_apply, idx12, val_main_v11_apply, idx11]

/-- THE REFERENCE IS THE SPECIFICATION. -/
theorem ref_eq (x : SX.Idx → EReal) (flat seg : IVec SK 32) (sizes : SP.Idx → EReal) :
    val_main_v14 (F := Ideal) x flat seg sizes = meanPool x flat seg sizes := by
  funext j
  obtain ⟨b, p, rfl⟩ : ∃ (b : Fin 2048) (p : Fin 1000), j = ix2 b p := ⟨j 0, j 1, eq_ix2 j⟩
  rw [val_main_v14_apply, idx14, val_main_v13_apply, sums_apply, divisor_apply, meanPool_apply]
  rfl

end Cert.Pooling.Ref

end
-- ==== Proof.KernelHost.lean ====
/-
  The kernel's host side and its body, read at an index.

  Before the region @main builds the membership-count matrix: the K (column, pathway) pairs — both index arrays
  normalised as jnp does, laid side by side as a [K, 2] array — scatter a one each into a [10000, 1000] table of zeros,
  which is then narrowed to bf16 (the identity on extended reals). Entry (g, p) of that matrix is a zero plus one `1` per
  pair that is exactly (g, p). The region finds this matrix as window 1's array. The body's one payload is the
  matrix product of its batch-row block with the whole matrix into a zero accumulator: entry (q, p) is the sum over the
  gene sets g of the block's (q, g) times the matrix's (g, p).
-/
import proofs.«407155_j72782515798453_1_alg».proof.Proof.Gen.KernelIdeal.Frame
import proofs.«407155_j72782515798453_1_alg».proof.Proof.Spec
import proofs.«407155_j72782515798453_1_alg».proof.Proof.LibScatterIdx
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cert.Pooling.Ker

open Idealize.ShloMosaic Idealize.ShloMosaic.TcCoe Idealize.SL.Sem Idealize.ShloMosaic.StableHlo
open Idealize.ShloMosaic.ValueIdx
open Cert.KernelIdeal Cert.KernelIdeal.Gen Cert.Pooling

variable {F : FTy → Type} [FloatOps F]

/-! ## The host stage, as terms of the two index arrays -/

/-- The (column, pathway) pairs, normalised, as a [K, 2] array. -/
def pairs (flat seg : IVec S36904 32) : IVec S36904x2 32 :=
  concatenate S36904x2 1
    [⟨S36904x1, broadcastInDim S36904x1 ![0] bcast_S36904_S36904x1_0
        (select (cmpi .slt flat (broadcastInDim S36904 ![] bcast_S_S36904 (constantI S_ 32 0#32)))
          (addi flat (broadcastInDim S36904 ![] bcast_S_S36904 (constantI S_ 32 10000#32))) flat)⟩,
     ⟨S36904x1, broadcastInDim S36904x1 ![0] bcast_S36904_S36904x1_0
        (select (cmpi .slt seg (broadcastInDim S36904 ![] bcast_S_S36904 (constantI S_ 32 0#32)))
          (addi seg (broadcastInDim S36904 ![] bcast_S_S36904 (constantI S_ 32 1000#32))) seg)⟩]
    concatenates_S36904x1_S36904x1_S36904x2_d1

/-- The membership-count matrix as the scatter leaves it, in f32. -/
def countsF32 (flat seg : IVec S36904 32) : FVec F S10000x1000 .f32 :=
  Host.scatterAdd scatter_S10000x1000_S36904x2_S36904_n_01_01_1
    (broadcastInDim S10000x1000 ![] bcast_S_S10000x1000 (constant S_ .f32 0x00000000#32))
    (pairs flat seg)
    (broadcastInDim S36904 ![] bcast_S_S36904 (constant S_ .f32 0x3F800000#32))

/-- The matrix the region reads: the counts narrowed to bf16. -/
def counts (flat seg : IVec S36904 32) : FVec F S10000x1000 .bf16 :=
  truncf .bf16 (countsF32 (F := F) flat seg) bitsLt_bf16_f32

section Entry
variable (m : (ℓ : Loc nD τ sig) → Buf (Elt F) ℓ)

set_option maxHeartbeats 4000000 in
/-- The region finds the count matrix of the launched index arrays in window 1's array. -/
theorem V_counts (c : Dev nD) :
    V m c main_v16 = counts (F := F) (m ((c : Thread nD τ).loc main_arg1)) (m ((c : Thread nD τ).loc main_arg2)) := by
  dsimp only [V, V0]
  simp only [hostOps0, List.flatten_cons, List.flatten_nil, List.append_nil, List.cons_append, List.nil_append]
  after_results
  rfl

end Entry

/-! ## The pairs and the counts at an index -/

theorem norm_apply (n : BitVec 32) (v : IVec S36904 32) (k : Fin 36904) :
    (select (cmpi .slt v (broadcastInDim S36904 ![] bcast_S_S36904 (constantI S_ 32 0#32)))
      (addi v (broadcastInDim S36904 ![] bcast_S_S36904 (constantI S_ 32 n))) v) (ix1 k) = wrap n (v (ix1 k)) := by
  show Scalar.select (IntOp.cmpi .slt (v (ix1 k)) (broadcastInDim S36904 ![] bcast_S_S36904 (constantI S_ 32 0#32) (ix1 k)))
      (IntOp.addi (v (ix1 k)) (broadcastInDim S36904 ![] bcast_S_S36904 (constantI S_ 32 n) (ix1 k))) (v (ix1 k)) = _
  rw [bcast_word, bcast_word]
  rfl

theorem col1_apply (v : IVec S36904 32) (k : Fin 36904) :
    broadcastInDim S36904x1 ![0] bcast_S36904_S36904x1_0 v (ix2 k (0 : Fin 1)) = v (ix1 k) :=
  broadcastInDim_apply _ bcast_S36904_S36904x1_0 v (ix2 k (0 : Fin 1)) (ix1 k) (fun a => match a with
    | ⟨0, _⟩ => by show k.val = if (36904 : Nat) = 1 then 0 else k.val; rw [if_neg (by decide)])

/-- Pair `k`'s column is the normalised `flat_indices[k]`, -/
theorem pairs_col (flat seg : IVec S36904 32) (k : Fin 36904) :
    pairs flat seg (ix2 k (0 : Fin 2)) = wrap 10000#32 (flat (ix1 k)) := by
  unfold pairs
  refine (concatenate_pair_apply_left 1 _ _ concatenates_S36904x1_S36904x1_S36904x2_d1 (ix2 k (0 : Fin 2)) rfl
    (ix2 k (0 : Fin 1)) (fun b => match b with | ⟨0, _⟩ => rfl | ⟨1, _⟩ => rfl)).trans ?_
  rw [col1_apply, norm_apply]

/-- and its pathway the normalised `segment_ids[k]`. -/
theorem pairs_seg (flat seg : IVec S36904 32) (k : Fin 36904) :
    pairs flat seg (ix2 k (1 : Fin 2)) = wrap 1000#32 (seg (ix1 k)) := by
  unfold pairs
  refine (concatenate_pair_apply_right 1 _ _ concatenates_S36904x1_S36904x1_S36904x2_d1 (ix2 k (1 : Fin 2)) rfl rfl
    (ix2 k (0 : Fin 1)) (fun b hb => match b, hb with | ⟨0, _⟩, _ => rfl | ⟨1, _⟩, hb => absurd rfl hb) rfl).trans ?_
  rw [col1_apply, norm_apply]

/-- Pair `k` is exactly `(g, p)`. -/
abbrev isPair (flat seg : IVec S36904 32) (g : Fin 10000) (p : Fin 1000) (k : Fin 36904) : Prop :=
  (wrap 10000#32 (flat (ix1 k))).toInt = (g.val : ℤ) ∧ (wrap 1000#32 (seg (ix1 k))).toInt = (p.val : ℤ)

/-- THE COUNTS AT (g, p): a zero plus one `1` per pair that is `(g, p)`. -/
theorem counts_apply (flat seg : IVec S36904 32) (g : Fin 10000) (p : Fin 1000) :
    counts (F := Ideal) flat seg (ix2 g p) = 0 + ∑ k : Fin 36904, if isPair flat seg g p k then (1 : EReal) else 0 := by
  unfold counts
  refine (truncf_apply (countsF32 (F := Ideal) flat seg) bitsLt_bf16_f32 (ix2 g p)).trans ?_
  unfold countsF32
  refine (ScatterIdx.scatterPairs_apply scatter_S10000x1000_S36904x2_S36904_n_01_01_1 _ (pairs flat seg) _ g p
    (isPair flat seg g p)
    (fun r => by rw [ScatterIdx.pairs_lands_iff _ rfl rfl rfl, pairs_col, pairs_seg])).trans ?_
  refine congrArg₂ (· + ·) ?_ (Finset.sum_congr rfl fun k _ => ?_)
  · rw [broadcastInDim_scalar_apply]; exact Ideal.ofBits_zero_f32
  · rw [broadcastInDim_scalar_apply]
    exact if_congr Iff.rfl Ideal.ofBits_one_f32 rfl

/-! ## The body's payload at an index -/

abbrev D := dot_S128x10000_S10000x1000_S128x1000_1_0_0_1_n_n

theorem lhs_0 (j : S128x1000.Idx) (k : D.contr.Idx) : (D.lhsIdx j k 0 : ℕ) = j 0 := by
  simp [DotDims.lhsIdx, D, dot_S128x10000_S10000x1000_S128x1000_1_0_0_1_n_n]; rfl
theorem lhs_1 (j : S128x1000.Idx) (k : D.contr.Idx) : (D.lhsIdx j k 1 : ℕ) = k ⟨0, by decide⟩ := by
  simp [DotDims.lhsIdx, D, dot_S128x10000_S10000x1000_S128x1000_1_0_0_1_n_n]; rfl
theorem rhs_0 (j : S128x1000.Idx) (k : D.contr.Idx) : (D.rhsIdx j k 0 : ℕ) = k ⟨0, by decide⟩ := by
  simp [DotDims.rhsIdx, D, dot_S128x10000_S10000x1000_S128x1000_1_0_0_1_n_n]; rfl
theorem rhs_1 (j : S128x1000.Idx) (k : D.contr.Idx) : (D.rhsIdx j k 1 : ℕ) = j 1 := by
  simp [DotDims.rhsIdx, D, dot_S128x10000_S10000x1000_S128x1000_1_0_0_1_n_n]; rfl

/-- THE PAYLOAD AT (q, p): the block's row `q` against the matrix's column `p`, summed over the gene sets. -/
theorem pay_apply (x0 : Vec Ideal S128x10000 .f32) (x1 : Vec Ideal S10000x1000 .bf16) (q : Fin 128) (p : Fin 1000) :
    k0_pay1 x0 x1 (ix2 q p) = ∑ g : Fin 10000, x0 (ix2 q g) * x1 (ix2 g p) := by
  unfold k0_pay1
  rw [shapeCast_self]
  refine (Ideal.matmul_constant_zero_apply (φ₁ := .bf16) (φ₂ := .bf16) D none (truncf .bf16 x0 bitsLt_bf16_f32) x1
    (ix2 q p)).trans ?_
  rw [← Equiv.sum_comp (contrEquiv1 D 10000 rfl rfl).symm]
  refine Finset.sum_congr rfl fun g _ => ?_
  have el : D.lhsIdx (ix2 q p) ((contrEquiv1 D 10000 rfl rfl).symm g) = ix2 q g :=
    funext fun a => Fin.ext (by
      match a with
      | ⟨0, _⟩ => exact lhs_0 _ _
      | ⟨1, _⟩ => exact (lhs_1 _ _).trans (contrEquiv1_symm_val D 10000 rfl rfl g))
  have er : D.rhsIdx (ix2 q p) ((contrEquiv1 D 10000 rfl rfl).symm g) = ix2 g p :=
    funext fun a => Fin.ext (by
      match a with
      | ⟨0, _⟩ => exact (rhs_0 _ _).trans (contrEquiv1_symm_val D 10000 rfl rfl g)
      | ⟨1, _⟩ => exact rhs_1 _ _)
  rw [el, er]
  rfl

end Cert.Pooling.Ker

end
-- ==== Proof.KernelValue.lean ====
/-
  The region's output array. Point `t` of the 16-point grid reads batch rows 128·t … 128·t + 127 of `x` and the whole
  count matrix, and writes back rows 128·t … of the product: what it writes back is block `t` of ONE whole-array
  function, `x` times the count matrix, entry `(b, p) = ∑ g, x(b, g) · counts(g, p)`. The 16 row blocks tile the 2048 rows,
  so after the region the output array is that product.
-/
import proofs.«407155_j72782515798453_1_alg».proof.Proof.KernelHost

set_option maxRecDepth 16384

noncomputable section

namespace Cert.Pooling.Ker

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.Pooling

/-- The batch rows times the count matrix. -/
def prod (x : S2048x10000.Idx → EReal) (cm : S10000x1000.Idx → EReal) : S2048x1000.Idx → EReal :=
  fun i => ∑ g : Fin 10000, x (ix2 (i 0) g) * cm (ix2 g (i 1))

variable (m : (ℓ : Loc nD τ sig) → Buf (Elt Ideal) ℓ)

theorem hz : (![0, 0] : Fin 2 → Nat) = fun _ => 0 := funext fun a => by fin_cases a <;> rfl

/-- The printed index maps, decided over the grid: the row-block windows sit at block `t`, the matrix's at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the arrays as the region finds them. -/
theorem flushed_eq (c : Dev nD) (t : Fin cfg0.N) :
    (dats m 0 c).flushed 2 t
      = ((cfg0.win 2).blk t).view.read (Elt Ideal) (prod (V m c main_arg0) (V m c main_v16)) := by
  show (cfg0.win 2).cut (grid0.coords t) ((dats m 0 c).after 2 t) = _
  rw [after0_2]
  unfold out0_2
  rw [View.canon_unit_zero hz]
  simp only [View.ld_unit_zero (S := S128x10000) hz, View.ld_unit_zero (S := S10000x1000) hz]
  obtain ⟨e0, e1, e2, e3, e4, e5⟩ := idx_facts t
  funext j
  obtain ⟨q, p, rfl⟩ : ∃ (q : Fin 128) (p : Fin 1000), j = ix2 q p := ⟨j 0, j 1, eq_ix2 j⟩
  show k0_pay1 (iblk m c 0 t) (iblk m c 1 t) (ix2 q p)
    = prod (V m c main_arg0) (V m c main_v16) (((cfg0.win 2).blk t).view.emb (ix2 q p))
  refine (pay_apply (iblk m c 0 t) (iblk m c 1 t) q p).trans ?_
  unfold prod
  refine Finset.sum_congr rfl fun g _ => ?_
  have h0 : iblk m c 0 t (ix2 q g)
      = V m c main_arg0 (ix2 ((((cfg0.win 2).blk t).view.emb (ix2 q p)) 0) g) := by
    show V m c main_arg0 (((cfg0.win 0).blk t).view.emb (ix2 q g)) = _
    refine congrArg (V m c main_arg0) (funext fun a => Fin.ext ?_)
    match a with
    | ⟨0, _⟩ =>
      show win0_0.index t (0 : Fin 2) * 128 + 1 * q.val = win0_2.index t (0 : Fin 2) * 128 + 1 * q.val
      omega
    | ⟨1, _⟩ =>
      show win0_0.index t (1 : Fin 2) * 10000 + 1 * g.val = g.val
      omega
  have h1 : iblk m c 1 t (ix2 g p)
      = V m c main_v16 (ix2 g ((((cfg0.win 2).blk t).view.emb (ix2 q p)) 1)) := by
    show V m c main_v16 (((cfg0.win 1).blk t).view.emb (ix2 g p)) = _
    refine congrArg (V m c main_v16) (funext fun a => Fin.ext ?_)
    match a with
    | ⟨0, _⟩ =>
      show win0_1.index t (0 : Fin 2) * 10000 + 1 * g.val = g.val
      omega
    | ⟨1, _⟩ =>
      show win0_1.index t (1 : Fin 2) * 1000 + 1 * p.val = win0_2.index t (1 : Fin 2) * 1000 + 1 * p.val
      omega
  rw [h0, h1]

/-- An index of the output array is in point `t`'s block iff each coordinate is in the block's range on its axis. -/
theorem mem_blk (t : Fin cfg0.N) (i : S2048x1000.Idx) :
    i ∈ ((cfg0.win 2).blk t).view.set ↔ ∀ a : Fin 2, win0_2.index t a * S128x1000.size a ≤ (i a).val
      ∧ (i a).val < win0_2.index t a * S128x1000.size a + S128x1000.size a := by
  show i ∈ ((View.whole main_v17).slice (win0_2.rect t)).set ↔ _
  rw [View.set_slice_whole, Rect.mem_set_unit]
  exact Iff.rfl

/-- Every output index is in some point's block: row `r` is in block `r / 128`. -/
theorem cover (i : S2048x1000.Idx) :
    ∃ t : Fin cfg0.N, (cfg0.win 2).flush t = true ∧ i ∈ ((cfg0.win 2).blk t).view.set := by
  have hi0 : (i 0).val < 2048 := (i 0).isLt
  have hi1 : (i 1).val < 1000 := (i 1).isLt
  have hN : (i 0).val / 128 < cfg0.N := by rw [show cfg0.N = 16 from N_0]; omega
  obtain ⟨_, _, _, _, e4, e5⟩ := idx_facts ⟨(i 0).val / 128, hN⟩
  refine ⟨⟨(i 0).val / 128, hN⟩, flush0_2 _, ?_⟩
  rw [mem_blk]
  intro a
  match a with
  | ⟨0, _⟩ =>
    show win0_2.index ⟨(i 0).val / 128, hN⟩ (0 : Fin 2) * 128 ≤ (i 0).val
      ∧ (i 0).val < win0_2.index ⟨(i 0).val / 128, hN⟩ (0 : Fin 2) * 128 + 128
    rw [e4]
    show (i 0).val / 128 * 128 ≤ (i 0).val ∧ (i 0).val < (i 0).val / 128 * 128 + 128
    omega
  | ⟨1, _⟩ =>
    show win0_2.index ⟨(i 0).val / 128, hN⟩ (1 : Fin 2) * 1000 ≤ (i 1).val
      ∧ (i 1).val < win0_2.index ⟨(i 0).val / 128, hN⟩ (1 : Fin 2) * 1000 + 1000
    rw [e5]
    omega

/-- THE OUTPUT ARRAY after the region: the product of the arrays as the region finds them. -/
theorem final (c : Dev nD) : (dats m 0 c).arrAt 2 cfg0.N = prod (V m c main_arg0) (V m c main_v16) :=
  (dats m 0 c).arrAt_eq_of_cover 2 (prod (V m c main_arg0) (V m c main_v16)) (fun t _ => flushed_eq m c t) cover

end Cert.Pooling.Ker

end
-- ==== Proof.PoolAlgebra.lean ====
/-
  The law that joins the two programs. For one batch row `x` over the gene sets, a list of K (column, pathway) pairs
  and one pathway: multiplying the row by that pathway's membership-count column — the count of the pairs naming each
  gene set — and summing over the gene sets gives the sum, over the pairs of that pathway, of the row's entry at the
  pair's column. On the extended reals a product distributes over a sum of NON-NEGATIVE terms, and a count is such a
  sum of ones; the rest is an exchange of two finite sums. No entry of the row needs to be finite.
-/
import Mathlib.Data.EReal.Operations
import Mathlib.Algebra.BigOperators.Group.Finset.Basic
import Mathlib.Algebra.BigOperators.Group.Finset.Piecewise
import Mathlib.Algebra.Order.BigOperators.Group.Finset

namespace Cert.Pooling

/-- A factor moves into a finite sum of non-negative extended reals. -/
theorem mul_sum_of_nonneg {ι : Type*} (s : Finset ι) (c : EReal) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- The row times the count column is the pooled sum: `∑ g, x g · #{k | col k = g, hit k} = ∑ k with hit k, x (col k)`,
    the count written as the scatter writes it, a zero plus one `1` per pair that lands. -/
theorem row_mul_counts {Gn K : ℕ} (x : Fin Gn → EReal) (col : Fin K → Fin Gn) (hit : Fin K → Prop) [DecidablePred hit] :
    ∑ g : Fin Gn, x g * (0 + ∑ k : Fin K, if col k = g ∧ hit k then (1 : EReal) else 0)
      = ∑ k : Fin K, if hit k then x (col k) else 0 := by
  have h1 : ∀ g : Fin Gn, x g * (0 + ∑ k : Fin K, if col k = g ∧ hit k then (1 : EReal) else 0)
      = ∑ k : Fin K, if col k = g ∧ hit k then x g else 0 := by
    intro g
    rw [zero_add, mul_sum_of_nonneg _ _ _ (fun k _ => by split <;> norm_num)]
    refine Finset.sum_congr rfl fun k _ => ?_
    split <;> simp
  rw [Finset.sum_congr rfl fun g _ => h1 g, Finset.sum_comm]
  refine Finset.sum_congr rfl fun k _ => ?_
  by_cases hk : hit k
  · simp only [hk, and_true, if_true]
    rw [Finset.sum_ite_eq Finset.univ (col k) x, if_pos (Finset.mem_univ _)]
  · simp only [hk, and_false, if_false]
    exact Finset.sum_const_zero

end Cert.Pooling
-- ==== Proof.Bridge.lean ====
/-
  The kernel's term is the specification, inside the index ranges. With every `flat_indices` word in `−10000 ≤ · < 10000`
  the normalised word is a column number, so the gather's clamp does nothing and "pair k is (g, p)" says "k's column is
  g"; with no `segment_ids` word negative the kernel's normalisation of it does nothing, so it says "k's pathway is
  p" as the reference reads it. The product of row b with the count column of p is then the pooled sum (the law of
  PoolAlgebra), and both programs divide it by `segment_sizes[p]`.
-/
import proofs.«407155_j72782515798453_1_alg».proof.Proof.KernelValue
import proofs.«407155_j72782515798453_1_alg».proof.Proof.PoolAlgebra

set_option maxRecDepth 16384

noncomputable section

namespace Cert.Pooling.Ker

open Idealize.ShloMosaic Idealize.ShloMosaic.ValueIdx Idealize.ShloMosaic.RowGather
open Cert.KernelIdeal Cert.KernelIdeal.Gen Cert.Pooling

/-- The index ranges the precondition states, word by word. -/
structure Ranges (flat seg : IVec S36904 32) : Prop where
  flat : ∀ k : S36904.Idx, -10000 ≤ (flat k).toInt ∧ (flat k).toInt < 10000
  seg : ∀ k : S36904.Idx, 0 ≤ (seg k).toInt

/-- Inside the ranges, pair `k` is `(g, p)` exactly when its clamped column is `g` and its segment id is `p`. -/
theorem isPair_iff {flat seg : IVec S36904 32} (h : Ranges flat seg) (g : Fin 10000) (p : Fin 1000) (k : Fin 36904) :
    isPair flat seg g p k ↔ (colOf flat k = g ∧ inPath seg p k) := by
  obtain ⟨h1, h2⟩ := wrap_range_10000 _ (h.flat (ix1 k)).1 (h.flat (ix1 k)).2
  show (wrap 10000#32 (flat (ix1 k))).toInt = (g.val : ℤ) ∧ (wrap 1000#32 (seg (ix1 k))).toInt = (p.val : ℤ)
    ↔ colOf flat k = g ∧ (seg (ix1 k)).toInt = (p.val : ℤ)
  rw [wrap_of_nonneg 1000#32 _ (h.seg (ix1 k))]
  have hc : (colOf flat k).val = min (wrap 10000#32 (flat (ix1 k))).toInt.toNat (10000 - 1) := rfl
  constructor
  · rintro ⟨a, b⟩
    exact ⟨Fin.ext (by rw [hc]; omega), b⟩
  · rintro ⟨a, b⟩
    have := congrArg Fin.val a
    rw [hc] at this
    exact ⟨by omega, b⟩

/-- Row `b` of `x` times the count column of pathway `p` is the pooled sum. -/
theorem prod_counts_apply (x : S2048x10000.Idx → EReal) {flat seg : IVec S36904 32} (h : Ranges flat seg)
    (b : Fin 2048) (p : Fin 1000) :
    prod x (counts (F := Ideal) flat seg) (ix2 b p) = pooled x flat seg b p := by
  have e : ∀ g : Fin 10000, x (ix2 b g) * counts (F := Ideal) flat seg (ix2 g p)
      = (fun g => x (ix2 b g)) g * (0 + ∑ k : Fin 36904, if colOf flat k = g ∧ inPath seg p k then (1 : EReal) else 0) := by
    intro g
    rw [counts_apply]
    exact congrArg (fun s => x (ix2 b g) * (0 + s))
      (Finset.sum_congr rfl fun k _ => if_congr (isPair_iff h g p k) rfl rfl)
  show ∑ g : Fin 10000, x (ix2 b g) * counts (F := Ideal) flat seg (ix2 g p) = _
  rw [Finset.sum_congr rfl fun g _ => e g]
  exact row_mul_counts (fun g => x (ix2 b g)) (colOf flat) (inPath seg p)

/-- The kernel's result as a term of the four arguments: the product over the divisor row broadcast along the batch. -/
def kerTerm (x : S2048x10000.Idx → EReal) (flat seg : IVec S36904 32) (sizes : S1000.Idx → EReal) : S2048x1000.Idx → EReal :=
  Host.divf (F := Ideal) (φ := .f32) (prod x (counts (F := Ideal) flat seg))
    (broadcastInDim S2048x1000 ![0, 1] bcast_S1x1000_S2048x1000_0_1 (broadcastInDim S1x1000 ![1] bcast_S1000_S1x1000_1 sizes))

/-- The divisor at `(b, p)` is `segment_sizes[p]`. -/
theorem divisor_apply (sizes : S1000.Idx → EReal) (b : Fin 2048) (p : Fin 1000) :
    broadcastInDim S2048x1000 ![0, 1] bcast_S1x1000_S2048x1000_0_1 (broadcastInDim S1x1000 ![1] bcast_S1000_S1x1000_1 sizes) (ix2 b p)
      = sizes (ix1 p) := by
  rw [broadcastInDim_apply ![0, 1] bcast_S1x1000_S2048x1000_0_1 _ (ix2 b p) (ix2 (0 : Fin 1) p) (fun a => match a with
      | ⟨0, _⟩ => by show 0 = if (1 : Nat) = 1 then 0 else b.val; rw [if_pos rfl]
      | ⟨1, _⟩ => by show p.val = if (1000 : Nat) = 1 then 0 else p.val; rw [if_neg (by decide)]),
    broadcastInDim_apply ![1] bcast_S1000_S1x1000_1 sizes (ix2 (0 : Fin 1) p) (ix1 p) (fun a => match a with
      | ⟨0, _⟩ => by show p.val = if (1000 : Nat) = 1 then 0 else p.val; rw [if_neg (by decide)])]

/-- THE KERNEL'S TERM IS THE SPECIFICATION, inside the index ranges. -/
theorem kerTerm_eq (x : S2048x10000.Idx → EReal) {flat seg : IVec S36904 32} (h : Ranges flat seg) (sizes : S1000.Idx → EReal) :
    kerTerm x flat seg sizes = meanPool x flat seg sizes := by
  funext j
  obtain ⟨b, p, rfl⟩ : ∃ (b : Fin 2048) (p : Fin 1000), j = ix2 b p := ⟨j 0, j 1, eq_ix2 j⟩
  rw [meanPool_apply]
  unfold kerTerm
  rw [hostDivf_apply, prod_counts_apply x h, divisor_apply]

end Cert.Pooling.Ker

end
-- ==== Proof.KernelRun.lean ====
/-
  The idealized kernel's run, with its result named. After the region the host divides the output array by the row of
  `segment_sizes` broadcast along the batch; the output array is the product of `x` with the count matrix (KernelValue),
  so @main's result is `kerTerm` of the four launched arguments, and the arguments end unchanged.
-/
import proofs.«407155_j72782515798453_1_alg».proof.Proof.Bridge

set_option maxRecDepth 16384

noncomputable section

namespace Cert.Pooling.Ker

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.Pooling

variable (m : (ℓ : Loc nD τ sig) → Buf (Elt Ideal) ℓ) (ρ : Dev nD → PrngReg)

/-- The output array as the host tail finds it: the product of the launched `x` with the count matrix of the launched
    index arrays. -/
theorem out_eq (c : Dev nD) :
    Pipeline.withArrays (cfgs 0).spec c (V0 m c) (fun w => (dats m 0 c).arrAt w (cfgs 0).N) (Proc.devRef .tc main_v17)
      = prod (m ((c : Thread nD τ).loc main_arg0))
          (counts (F := Ideal) (m ((c : Thread nD τ).loc main_arg1)) (m ((c : Thread nD τ).loc main_arg2))) :=
  ((Pipeline.withArrays_arr spec0 launch0.win.arr_inj c _ _ 2).trans (final m c)).trans
    (by rw [V_main_arg0, V_counts])

/-- The divisor row as the host tail finds it: the launched `segment_sizes`. -/
theorem sizes_eq (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- @main's result after the host tail. -/
theorem tail_eq (c : Dev nD) :
    Pipeline.afterTail₀ cfgs (dats m) 0 (V0 m) [hostOps1] c main_v20
      = kerTerm (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v20) = _
  after_results
  rw [out_eq, sizes_eq]
  rfl

/-- THE RUN: every weakly fair execution of the idealized kernel's @main terminates with its result at `kerTerm` of the
    launched arguments and the arguments unchanged. -/
theorem run : θ_run defs (onTc (τ := τ) (main (F := Ideal))) ⟨m, fun _ => 0, ρ⟩ fun r => ∀ c : Dev nD,
      r.2.mem ((c.tc : Thread nD τ).loc main_v20)
        = kerTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Pooling.Ker

end
-- ==== Proof.lean ====
/-
  Per-pathway mean pooling, computed two ways, is one function of the arguments inside the index ranges.

  The reference gathers the columns `flat_indices` names out of `x`, adds the gathered columns of each pathway together
  (`segment_sum` over `segment_ids`) and divides by `segment_sizes`. The kernel first turns the ragged pair lists into a
  dense [10000, 1000] matrix that counts, for each gene set g and pathway p, the pairs that are exactly (g, p); its
  Pallas region multiplies the batch rows of `x` by that matrix, 128 rows a grid point, on the matrix unit; the host then
  divides by `segment_sizes`. Since summing a row's entries against counts is summing them pair by pair,
  `∑ g, x(b, g) · #{k | pair k = (g, p)} = ∑ k with pathway p, x(b, column k)` — a product distributes over a sum of
  ones on the extended reals, and two finite sums exchange; no entry of `x` has to be finite —, the two results agree,
  entry by entry, wherever both programs read the pairs the same way. They do inside the stated ranges: a
  `flat_indices` word in `−10000 ≤ · < 10000` normalises to a column number (outside, the reference's gather clamps where
  the kernel's scatter drops), and a `segment_ids` word that is not negative is read alike by both (a negative one the
  reference drops while the kernel's indexing wraps it to the last pathways). Ids of 1000 and more are dropped by
  both, and need no bound.

  The modules: PoolAlgebra (the summation law), IndexWords and PreDecode (the ranges out of the printed precondition),
  Spec (the pooled mean as one function), RefValue (the reference's stages read at an index: it is Spec's function),
  KernelHost, KernelValue, KernelRun (the count matrix and the body's product at an index; the 16 row blocks tile the
  output; the run with the result named), Bridge (the kernel's term is Spec's function inside the ranges); the
  Lib modules hold the scatter and gather index facts, stated for any extents.
-/
import proofs.«407155_j72782515798453_1_alg».proof.Defs
import proofs.«407155_j72782515798453_1_alg».proof.Proof.Gen.Kernel
import proofs.«407155_j72782515798453_1_alg».proof.Proof.Gen.Kernel.Skeleton
import proofs.«407155_j72782515798453_1_alg».proof.Proof.Gen.Kernel.Launch
import proofs.«407155_j72782515798453_1_alg».proof.Proof.Gen.Kernel.Points
import proofs.«407155_j72782515798453_1_alg».proof.Proof.Gen.Kernel.Frame
import proofs.«407155_j72782515798453_1_alg».proof.Proof.Gen.KernelIdeal
import proofs.«407155_j72782515798453_1_alg».proof.Proof.Gen.KernelIdeal.Skeleton
import proofs.«407155_j72782515798453_1_alg».proof.Proof.Gen.KernelIdeal.Launch
import proofs.«407155_j72782515798453_1_alg».proof.Proof.Gen.KernelIdeal.Points
import proofs.«407155_j72782515798453_1_alg».proof.Proof.Gen.KernelIdeal.Frame
import proofs.«407155_j72782515798453_1_alg».proof.Proof.Gen.ReferenceIdeal
import proofs.«407155_j72782515798453_1_alg».proof.Proof.Gen.Pre_finite_inputs
import proofs.«407155_j72782515798453_1_alg».proof.Proof.Gen.ReferenceIdeal.Run
import proofs.«407155_j72782515798453_1_alg».proof.Proof.Gen.ReferenceIdeal.Read
import proofs.«407155_j72782515798453_1_alg».proof.Proof.PreDecode
import proofs.«407155_j72782515798453_1_alg».proof.Proof.RefValue
import proofs.«407155_j72782515798453_1_alg».proof.Proof.KernelRun
import Idealize.ShloMosaic.Adequacy
import Idealize.ShloMosaic.Init

noncomputable section

namespace Cert.Proof

open Idealize.ShloMosaic Idealize.ShloMosaic.TcCoe Idealize.SL.Sem Cert.Pooling

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the pooled mean of the launched arguments: the kernel's by its run and the bridge, inside the ranges
    the precondition states; the reference's by its run read stage by stage; the two memories agree on the arguments. -/
theorem algebraic : Cert.algebraic_KernelIdeal_ReferenceIdeal := by
  intro m ρ m' ρ' hpre hagree
  have hr : ∀ c : Dev Cert.KernelIdeal.nD, Ker.Ranges
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := fun c =>
    let h := ranges_of_pre _ _ _ _ (hpre c)
    ⟨h.1, h.2⟩
  refine ⟨fun c => meanPool
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Ker.kerTerm_eq _ (hr c) _), (h c).2⟩) (Ker.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Ref.ref_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
